-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 86
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Layers.lean ====
/-
  The two dense stages of a graph-convolution layer, as functions of whole arrays at the exact (extended-real) reading.
  * `lin x W` : the node features times a weight matrix — entry (r, c) is the sum over k of x[r, k] · W[k, c].
  * `biasRelu a b` : add the bias row to every node's row and clamp below at zero — entry (r, c) is max (a[r, c] + b[0, c]) 0.
  A layer is `biasRelu (aggregate (lin h W)) b`; the aggregation over edges is the same host computation in both
  programs and is never opened.
-/
import proofs.«168177_j429496729746_1_alg».proof.KernelIdeal
import Idealize.ShloMosaic.PureOps.Ideal
import Idealize.ShloMosaic.PureOps.Ideal.Laws
import Idealize.ShloMosaic.Lib.ValueIdx

noncomputable section

namespace Cert.Layers

open Idealize.ShloMosaic Cert.KernelIdeal

/-- Entry (r, k) of a node-feature array, for the output entry i = (r, c). -/
abbrev rowAt (i : S100000x128.Idx) (k : Fin 128) : S100000x128.Idx := fun a => match a with
  | ⟨0, _⟩ => ⟨(i 0).val, (i 0).isLt⟩
  | ⟨1, _⟩ => ⟨k.val, k.isLt⟩
/-- Entry (k, c) of a weight matrix, for the output entry i = (r, c). -/
abbrev colAt (i : S100000x128.Idx) (k : Fin 128) : S128x128.Idx := fun a => match a with
  | ⟨0, _⟩ => ⟨k.val, k.isLt⟩
  | ⟨1, _⟩ => ⟨(i 1).val, (i 1).isLt⟩
/-- Entry (0, c) of a bias row, for the output entry i = (r, c). -/
abbrev biasAt (i : S100000x128.Idx) : S1x128.Idx := fun a => match a with
  | ⟨0, _⟩ => ⟨0, Nat.one_pos⟩
  | ⟨1, _⟩ => ⟨(i 1).val, (i 1).isLt⟩

/-- x · W, entry by entry: (x · W)[r, c] = ∑ₖ x[r, k] · W[k, c]. -/
def lin (x : (⟨S100000x128, .f32⟩ : BufTy).Contents (Elt Ideal)) (W : (⟨S128x128, .f32⟩ : BufTy).Contents (Elt Ideal)) :
    (⟨S100000x128, .f32⟩ : BufTy).Contents (Elt Ideal) :=
  fun i => ∑ k : Fin 128, x (rowAt i k) * W (colAt i k)

/-- max (a + b) 0 with the bias row b repeated down the nodes: entry (r, c) is max (a[r, c] + b[0, c]) 0. -/
def biasRelu (a : (⟨S100000x128, .f32⟩ : BufTy).Contents (Elt Ideal)) (b : (⟨S1x128, .f32⟩ : BufTy).Contents (Elt Ideal)) :
    (⟨S100000x128, .f32⟩ : BufTy).Contents (Elt Ideal) :=
  fun i => FloatOps.maximumf (F := Ideal) (φ := .f32) (FloatOps.addf (F := Ideal) (φ := .f32) (a i) (b (biasAt i))) (FloatOps.ofBits (F := Ideal) .f32 0x00000000#32)

theorem lin_apply (x : (⟨S100000x128, .f32⟩ : BufTy).Contents (Elt Ideal)) (W : (⟨S128x128, .f32⟩ : BufTy).Contents (Elt Ideal))
    (i : S100000x128.Idx) : lin x W i = ∑ k : Fin 128, x (rowAt i k) * W (colAt i k) := rfl

theorem biasRelu_apply (a : (⟨S100000x128, .f32⟩ : BufTy).Contents (Elt Ideal)) (b : (⟨S1x128, .f32⟩ : BufTy).Contents (Elt Ideal))
    (i : S100000x128.Idx) :
    biasRelu a b i = FloatOps.maximumf (F := Ideal) (φ := .f32) (FloatOps.addf (F := Ideal) (φ := .f32) (a i) (b (biasAt i))) (FloatOps.ofBits (F := Ideal) .f32 0x00000000#32) := rfl

end Cert.Layers

end
-- ==== Proof.ChainDefs.lean ====
/-
  The host computation around the dense stages, as functions of whole arrays, for any float family.
  From the edge list (two rows of node indices) the graph's normalisation is built once and used by both layers:
  * `endpoints0` / `endpoints1`: a row of the edge list with the self loops 0, 1, …, N-1 appended;
  * `wrapped s`: a negative index moved up by the number of nodes, as a column of indices;
  * `degree d`: the number of edges arriving at each node (a scatter-add of ones);
  * `invSqrtDegree deg`: deg^(-1/2) where deg > 0, else 0;
  * `edgeWeight dinv s d`: dinv[s] · dinv[d], one weight per edge;
  * `aggregate s d w h`: for every edge, row s of h times the edge's weight, added into row d — the layer's message passing;
  * `biasRow b`: a bias vector as a one-row matrix.
  Both programs apply these same operations, so nothing here is ever opened: the two sides meet at these names.
-/
import proofs.«168177_j429496729746_1_alg».proof.Proof.Gen.KernelIdeal

noncomputable section

namespace Cert.KernelIdeal.Chains

open Idealize.ShloMosaic Cert.KernelIdeal Cert.KernelIdeal.Facts₀ Cert.KernelIdeal.Facts

variable {F : FTy → Type} [FloatOps F]

/-- Row 0 of the edge list, then the self loops. -/
def endpoints0 (ei : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] ei slices_S2x1600000_S1x1600000_0_0) shapeCasts_S1x1600000_S1600000⟩,
      ⟨S100000, iotaInDim S100000 32 0⟩]
    concatenates_S1600000_S100000_S1700000_d0

/-- Row 1 of the edge list, then the self loops. -/
def endpoints1 (ei : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] ei slices_S2x1600000_S1x1600000_1_0) shapeCasts_S1x1600000_S1600000⟩,
      ⟨S100000, iotaInDim S100000 32 0⟩]
    concatenates_S1600000_S100000_S1700000_d0

/-- An index below zero counts from the end: it is moved up by the number of nodes. As a column of indices. -/
def wrapped (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- How many edges (self loops included) arrive at each node. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- Where the degree is positive. -/
def positive (deg : (⟨S100000, .f32⟩ : BufTy).Contents (Elt F)) : (⟨S100000, .i1⟩ : BufTy).Contents (Elt F) :=
  cmpf (F := F) .ogt deg (broadcastInDim S100000 ![] bcast_S_S100000 (constant S_ .f32 0x00000000#32))

/-- (max deg 1)^(-1/2). -/
def invSqrtClamped (deg : (⟨S100000, .f32⟩ : BufTy).Contents (Elt F)) : (⟨S100000, .f32⟩ : BufTy).Contents (Elt F) :=
  Host.rsqrt (maximumf deg (broadcastInDim S100000 ![] bcast_S_S100000 (constant S_ .f32 0x3F800000#32)))

/-- `r` where `pos`, the scalar `z` elsewhere. -/
def masked (pos : (⟨S100000, .i1⟩ : BufTy).Contents (Elt F)) (r : (⟨S100000, .f32⟩ : BufTy).Contents (Elt F))
    (z : (⟨S_, .f32⟩ : BufTy).Contents (Elt F)) : (⟨S100000, .f32⟩ : BufTy).Contents (Elt F) :=
  select pos r (broadcastInDim S100000 ![] bcast_S_S100000 (id z))

/-- deg^(-1/2) where the degree is positive, 0 elsewhere. -/
def invSqrtDegree (deg : (⟨S100000, .f32⟩ : BufTy).Contents (Elt F)) : (⟨S100000, .f32⟩ : BufTy).Contents (Elt F) :=
  masked (positive deg) (invSqrtClamped deg) (constant S_ .f32 0x00000000#32)

/-- The weight of each edge: dinv at its source times dinv at its target. -/
def edgeWeight (dinv : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 dinv (wrapped s))
    (Host.gather gather_S100000_S1700000x1_S1700000_n_0_n_n_0_1_1 dinv (wrapped d))

/-- Message passing: row s(e) of h times the weight of edge e, added into row d(e), over all edges e. -/
def aggregate (s d : (⟨S1700000, .i32⟩ : BufTy).Contents (Elt F)) (w : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 h (wrapped s))
      (broadcastInDim S1700000x128 ![0, 1] bcast_S1700000x1_S1700000x128_0_1
        (broadcastInDim S1700000x1 ![0] bcast_S1700000_S1700000x1_0 w)))

/-- A bias vector as a matrix of one row. -/
def biasRow (b : (⟨S128, .f32⟩ : BufTy).Contents (Elt F)) : (⟨S1x128, .f32⟩ : BufTy).Contents (Elt F) :=
  shapeCast S1x128 b shapeCasts_S128_S1x128

/-- The edge weights of the whole graph from its edge list. -/
def graphWeight (ei : (⟨S2x1600000, .i32⟩ : BufTy).Contents (Elt F)) : (⟨S1700000, .f32⟩ : BufTy).Contents (Elt F) :=
  edgeWeight (invSqrtDegree (degree (endpoints1 ei))) (endpoints0 ei) (endpoints1 ei)

/-- One round of message passing over the graph of the edge list. -/
def propagate (ei : (⟨S2x1600000, .i32⟩ : BufTy).Contents (Elt F)) (h : (⟨S100000x128, .f32⟩ : BufTy).Contents (Elt F)) :
    (⟨S100000x128, .f32⟩ : BufTy).Contents (Elt F) :=
  aggregate (endpoints0 ei) (endpoints1 ei) (graphWeight ei) h

end Cert.KernelIdeal.Chains

end
-- ==== Proof.Network.lean ====
/-
  The whole two-layer graph convolution as ONE function of its six arguments, at the exact reading:
      out = relu (A · (relu (A · (x·W₁) + b₁) · W₂) + b₂)
  where A · h is one round of message passing over the graph of the edge list (`propagate`: gather each edge's source
  row, scale by the edge's weight, add into the edge's target row) and relu (· + b) is `biasRelu`.
  Both programs are shown to compute this function.
-/
import proofs.«168177_j429496729746_1_alg».proof.Proof.Layers
import proofs.«168177_j429496729746_1_alg».proof.Proof.ChainDefs

noncomputable section

namespace Cert.Layers

open Idealize.ShloMosaic Cert.KernelIdeal Cert.KernelIdeal.Chains

/-- relu (A·(relu (A·(x·W₁) + b₁)·W₂) + b₂). -/
def network (x : (⟨S100000x128, .f32⟩ : BufTy).Contents (Elt Ideal)) (ei : (⟨S2x1600000, .i32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal)) :
    (⟨S100000x128, .f32⟩ : BufTy).Contents (Elt Ideal) :=
  biasRelu (propagate (F := Ideal) ei (lin (biasRelu (propagate (F := Ideal) ei (lin x W1)) (biasRow (F := Ideal) b1)) W2))
    (biasRow (F := Ideal) b2)

end Cert.Layers

end
-- ==== Proof.StretchEntry.lean ====
/-
  The first stretch of host operations (before the first dense stage), read at the buffers later stretches use, from
  any contents `Vin` of the buffers: the two endpoint lists, and the two halves of the inverse square-root degree
  (where the degree is positive; the clamped inverse square root) with the zero they are joined by.
-/
import proofs.«168177_j429496729746_1_alg».proof.Proof.Gen.KernelIdeal.Launch
import proofs.«168177_j429496729746_1_alg».proof.Proof.ChainDefs
import Idealize.ShloMosaic.Lib.StableHlo.Run

set_option maxRecDepth 16384

noncomputable section

namespace Cert.KernelIdeal.Chains

open Idealize.ShloMosaic Idealize.ShloMosaic.TcCoe Idealize.SL.Sem Idealize.ShloMosaic.StableHlo
open Cert.KernelIdeal Cert.KernelIdeal.Gen

variable {F : FTy → Type} [FloatOps F]
variable (Vin : Valuation τ sig (Elt F))

set_option maxHeartbeats 4000000 in
/-- The edge sources with the self loops appended. -/
theorem entry_sources : StableHlo.after hostOps0 Vin (Proc.devRef .tc main_v3) = endpoints0 (Vin (Proc.devRef .tc main_arg1)) := by
  after_results; rfl

set_option maxHeartbeats 4000000 in
/-- The edge targets with the self loops appended. -/
theorem entry_targets : StableHlo.after hostOps0 Vin (Proc.devRef .tc main_v6) = endpoints1 (Vin (Proc.devRef .tc main_arg1)) := by
  after_results; rfl

set_option maxHeartbeats 4000000 in
/-- Where a node's degree is positive. -/
theorem entry_positive : StableHlo.after hostOps0 Vin (Proc.devRef .tc main_v12) = positive (degree (endpoints1 (Vin (Proc.devRef .tc main_arg1)))) := by
  after_results; rfl

set_option maxHeartbeats 4000000 in
/-- The inverse square root of the degree clamped below at one. -/
theorem entry_invSqrt : StableHlo.after hostOps0 Vin (Proc.devRef .tc main_v15) = invSqrtClamped (degree (endpoints1 (Vin (Proc.devRef .tc main_arg1)))) := by
  after_results; rfl

set_option maxHeartbeats 4000000 in
/-- The scalar zero the mask fills with. -/
theorem entry_zero : StableHlo.after hostOps0 Vin (Proc.devRef .tc main_cst_3) = (constant S_ .f32 0x00000000#32 : (⟨S_, .f32⟩ : BufTy).Contents (Elt F)) := by
  after_results

end Cert.KernelIdeal.Chains

end
-- ==== Proof.StretchWeights.lean ====
/-
  The two short stretches that finish the graph's normalisation, from any contents `Vin`: the masked inverse
  square-root degree (a `where`), and the edge weights as the product of its values at an edge's two ends.
-/
import proofs.«168177_j429496729746_1_alg».proof.Proof.Gen.KernelIdeal.Launch
import proofs.«168177_j429496729746_1_alg».proof.Proof.ChainDefs
import Idealize.ShloMosaic.Lib.StableHlo.Run

set_option maxRecDepth 16384

noncomputable section

namespace Cert.KernelIdeal.Chains

open Idealize.ShloMosaic Idealize.ShloMosaic.TcCoe Idealize.SL.Sem Idealize.ShloMosaic.StableHlo
open Cert.KernelIdeal Cert.KernelIdeal.Gen

variable {F : FTy → Type} [FloatOps F]
variable (Vin : Valuation τ sig (Elt F))

set_option maxHeartbeats 4000000 in
/-- The inverse square-root degree where the degree is positive, the fill value elsewhere. -/
theorem mask_joined : StableHlo.after hostOps0_1 Vin (Proc.devRef .tc main_v16) = masked (Vin (Proc.devRef .tc main_v12)) (Vin (Proc.devRef .tc main_v15)) (Vin (Proc.devRef .tc main_cst_3)) := by
  after_results; (try simp only [TRef.ofBuf, TRef.toBuf, cast_eq]); rfl

set_option maxHeartbeats 4000000 in
/-- One weight per edge from the per-node factor and the two endpoint lists. -/
theorem weights_from : StableHlo.after hostOps0_2 Vin (Proc.devRef .tc main_v31) = edgeWeight (Vin (Proc.devRef .tc main_v16)) (Vin (Proc.devRef .tc main_v3)) (Vin (Proc.devRef .tc main_v6)) := by
  after_results; rfl

end Cert.KernelIdeal.Chains

end
-- ==== Proof.StretchLayers.lean ====
/-
  The stretch of host operations between two dense stages, from any contents `Vin`: one round of message passing over
  the stage's output, and the next stage's bias as a one-row matrix. The same for both layers.
-/
import proofs.«168177_j429496729746_1_alg».proof.Proof.Gen.KernelIdeal.Launch
import proofs.«168177_j429496729746_1_alg».proof.Proof.ChainDefs
import Idealize.ShloMosaic.Lib.StableHlo.Run

set_option maxRecDepth 16384

noncomputable section

namespace Cert.KernelIdeal.Chains

open Idealize.ShloMosaic Idealize.ShloMosaic.TcCoe Idealize.SL.Sem Idealize.ShloMosaic.StableHlo
open Cert.KernelIdeal Cert.KernelIdeal.Gen

variable {F : FTy → Type} [FloatOps F]
variable (Vin : Valuation τ sig (Elt F))

set_option maxHeartbeats 4000000 in
/-- Message passing over the first dense stage's output. -/
theorem first_round : StableHlo.after hostOps1 Vin (Proc.devRef .tc main_v45) = aggregate (Vin (Proc.devRef .tc main_v3)) (Vin (Proc.devRef .tc main_v6)) (Vin (Proc.devRef .tc main_v31)) (Vin (Proc.devRef .tc main_v32)) := by
  after_results; rfl

set_option maxHeartbeats 4000000 in
/-- The first layer's bias as a row. -/
theorem first_bias : StableHlo.after hostOps1 Vin (Proc.devRef .tc main_v46) = biasRow (Vin (Proc.devRef .tc main_arg3)) := by
  after_results; rfl

set_option maxHeartbeats 4000000 in
/-- Message passing over the second dense stage's output. -/
theorem second_round : StableHlo.after hostOps2 Vin (Proc.devRef .tc main_v60) = aggregate (Vin (Proc.devRef .tc main_v3)) (Vin (Proc.devRef .tc main_v6)) (Vin (Proc.devRef .tc main_v31)) (Vin (Proc.devRef .tc main_v47)) := by
  after_results; rfl

set_option maxHeartbeats 4000000 in
/-- The second layer's bias as a row. -/
theorem second_bias : StableHlo.after hostOps2 Vin (Proc.devRef .tc main_v61) = biasRow (Vin (Proc.devRef .tc main_arg5)) := by
  after_results; rfl

end Cert.KernelIdeal.Chains

end
-- ==== Proof.Keeps.lean ====
/-
  Buffers a stretch of host operations does not write keep their contents across it: each stretch writes only its own
  results, so the arguments, the two endpoint lists and the edge weights pass through the later stretches unchanged.
  Stated from any contents `Vin`.
-/
import proofs.«168177_j429496729746_1_alg».proof.Proof.Gen.KernelIdeal.Launch
import Idealize.ShloMosaic.Lib.StableHlo.Run

set_option maxRecDepth 16384

noncomputable section

namespace Cert.KernelIdeal.Chains

open Idealize.ShloMosaic Idealize.ShloMosaic.TcCoe Idealize.SL.Sem Idealize.ShloMosaic.StableHlo
open Cert.KernelIdeal Cert.KernelIdeal.Gen

variable {F : FTy → Type} [FloatOps F]
variable (Vin : Valuation τ sig (Elt F))

theorem keep_hostOps0_main_arg0 : StableHlo.after hostOps0 Vin (Proc.devRef .tc main_arg0) = Vin (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_main_arg2 : StableHlo.after hostOps0 Vin (Proc.devRef .tc main_arg2) = Vin (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_main_arg3 : StableHlo.after hostOps0 Vin (Proc.devRef .tc main_arg3) = Vin (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_main_arg4 : StableHlo.after hostOps0 Vin (Proc.devRef .tc main_arg4) = Vin (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_main_arg5 : StableHlo.after hostOps0 Vin (Proc.devRef .tc main_arg5) = Vin (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_1_main_arg0 : StableHlo.after hostOps0_1 Vin (Proc.devRef .tc main_arg0) = Vin (Proc.devRef .tc main_arg0) :=
  StableHlo.after_of_forall_not_mem (b := Proc.devRef .tc main_arg0) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_1_main_arg2 : StableHlo.after hostOps0_1 Vin (Proc.devRef .tc main_arg2) = Vin (Proc.devRef .tc main_arg2) :=
  StableHlo.after_of_forall_not_mem (b := Proc.devRef .tc main_arg2) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_1_main_arg3 : StableHlo.after hostOps0_1 Vin (Proc.devRef .tc main_arg3) = Vin (Proc.devRef .tc main_arg3) :=
  StableHlo.after_of_forall_not_mem (b := Proc.devRef .tc main_arg3) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_1_main_arg4 : StableHlo.after hostOps0_1 Vin (Proc.devRef .tc main_arg4) = Vin (Proc.devRef .tc main_arg4) :=
  StableHlo.after_of_forall_not_mem (b := Proc.devRef .tc main_arg4) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_1_main_arg5 : StableHlo.after hostOps0_1 Vin (Proc.devRef .tc main_arg5) = Vin (Proc.devRef .tc main_arg5) :=
  StableHlo.after_of_forall_not_mem (b := Proc.devRef .tc main_arg5) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_1_main_v3 : StableHlo.after hostOps0_1 Vin (Proc.devRef .tc main_v3) = Vin (Proc.devRef .tc main_v3) :=
  StableHlo.after_of_forall_not_mem (b := Proc.devRef .tc main_v3) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_1_main_v6 : StableHlo.after hostOps0_1 Vin (Proc.devRef .tc main_v6) = Vin (Proc.devRef .tc main_v6) :=
  StableHlo.after_of_forall_not_mem (b := Proc.devRef .tc main_v6) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_2_main_arg0 : StableHlo.after hostOps0_2 Vin (Proc.devRef .tc main_arg0) = Vin (Proc.devRef .tc main_arg0) :=
  StableHlo.after_of_forall_not_mem (b := Proc.devRef .tc main_arg0) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_2_main_arg2 : StableHlo.after hostOps0_2 Vin (Proc.devRef .tc main_arg2) = Vin (Proc.devRef .tc main_arg2) :=
  StableHlo.after_of_forall_not_mem (b := Proc.devRef .tc main_arg2) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_2_main_arg3 : StableHlo.after hostOps0_2 Vin (Proc.devRef .tc main_arg3) = Vin (Proc.devRef .tc main_arg3) :=
  StableHlo.after_of_forall_not_mem (b := Proc.devRef .tc main_arg3) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_2_main_arg4 : StableHlo.after hostOps0_2 Vin (Proc.devRef .tc main_arg4) = Vin (Proc.devRef .tc main_arg4) :=
  StableHlo.after_of_forall_not_mem (b := Proc.devRef .tc main_arg4) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_2_main_arg5 : StableHlo.after hostOps0_2 Vin (Proc.devRef .tc main_arg5) = Vin (Proc.devRef .tc main_arg5) :=
  StableHlo.after_of_forall_not_mem (b := Proc.devRef .tc main_arg5) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_2_main_v3 : StableHlo.after hostOps0_2 Vin (Proc.devRef .tc main_v3) = Vin (Proc.devRef .tc main_v3) :=
  StableHlo.after_of_forall_not_mem (b := Proc.devRef .tc main_v3) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps0_2_main_v6 : StableHlo.after hostOps0_2 Vin (Proc.devRef .tc main_v6) = Vin (Proc.devRef .tc main_v6) :=
  StableHlo.after_of_forall_not_mem (b := Proc.devRef .tc main_v6) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_main_arg4 : StableHlo.after hostOps1 Vin (Proc.devRef .tc main_arg4) = Vin (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_main_arg5 : StableHlo.after hostOps1 Vin (Proc.devRef .tc main_arg5) = Vin (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_main_v3 : StableHlo.after hostOps1 Vin (Proc.devRef .tc main_v3) = Vin (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_main_v6 : StableHlo.after hostOps1 Vin (Proc.devRef .tc main_v6) = Vin (Proc.devRef .tc main_v6) :=
  StableHlo.after_of_forall_not_mem (b := Proc.devRef .tc main_v6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_main_v31 : StableHlo.after hostOps1 Vin (Proc.devRef .tc main_v31) = Vin (Proc.devRef .tc main_v31) :=
  StableHlo.after_of_forall_not_mem (b := Proc.devRef .tc main_v31) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Chains

end
-- ==== Proof.TileProduct.lean ====
/-
  One row tile's product into the zero accumulator, read at an entry: for a tile of 10000 rows of node features
  (lhs) and a 128 x 128 weight matrix (rhs), entry (r, c) of the product is the sum over k of lhs[r, k] * rhs[k, c].
  At the exact (extended-real) reading the accumulator is the real zero and nothing is rounded, so the product is
  that plain sum; what is left is to name the two operand entries the contraction index k reads.
-/
import proofs.«168177_j429496729746_1_alg».proof.Proof.Gen.KernelIdeal
import Idealize.ShloMosaic.PureOps.Ideal.Laws
import Idealize.ShloMosaic.Lib.ValueIdx

noncomputable section

namespace Cert.Layers

open Idealize.ShloMosaic Cert.KernelIdeal

/-- Entry (r, k) of a tile of node features, for the output entry j = (r, c). -/
abbrev tileRow (j : S10000x128.Idx) (k : Fin 128) : S10000x128.Idx := fun a => match a with
  | ⟨0, _⟩ => ⟨(j 0).val, (j 0).isLt⟩
  | ⟨1, _⟩ => ⟨k.val, k.isLt⟩
/-- Entry (k, c) of the weight matrix, for the output entry j = (r, c). -/
abbrev tileCol (j : S10000x128.Idx) (k : Fin 128) : S128x128.Idx := fun a => match a with
  | ⟨0, _⟩ => ⟨k.val, k.isLt⟩
  | ⟨1, _⟩ => ⟨(j 1).val, (j 1).isLt⟩

/-- The left operand's row coordinate is the output's row. -/
theorem lhs_tile_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contraction index. -/
theorem lhs_tile_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contraction index. -/
theorem rhs_tile_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the output's column. -/
theorem rhs_tile_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- One tile's product into the zero accumulator, entry (r, c), is the sum over k of lhs[r, k] * rhs[k, c]. -/
theorem tile_product (lhs : FVec Ideal S10000x128 .bf16) (rhs : FVec Ideal S128x128 .bf16) (j : S10000x128.Idx) :
    matmul (F := Ideal) dot_S10000x128_S128x128_S10000x128_1_0_0_1_n_n none lhs rhs (constant S10000x128 .f32 0x00000000#32) j
      = ∑ k : Fin 128, lhs (tileRow j k) * rhs (tileCol j k) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = tileRow j k := funext fun a => Fin.ext (by
    match a with
    | ⟨0, _⟩ => exact lhs_tile_0 _ _
    | ⟨1, _⟩ => exact (lhs_tile_1 _ _).trans hk)
  have er : dot_S10000x128_S128x128_S10000x128_1_0_0_1_n_n.rhsIdx j ((ValueIdx.contrEquiv1 dot_S10000x128_S128x128_S10000x128_1_0_0_1_n_n 128 rfl rfl).symm k) = tileCol j k := funext fun a => Fin.ext (by
    match a with
    | ⟨0, _⟩ => exact (rhs_tile_0 _ _).trans hk
    | ⟨1, _⟩ => exact rhs_tile_1 _ _)
  rw [el, er]

end Cert.Layers

end
-- ==== Proof.Region0.lean ====
/-
  The first region's output array. The region multiplies the node features x (100000 x 128) by the weight
  matrix W (128 x 128), one tile of 10000 rows at each of its ten grid points. Point t reads rows
  10000 t ... 10000 t + 9999 of x and the whole of W, and writes back the same rows of the output. Entry (r, c)
  of that tile's product is the sum over k of x[10000 t + r, k] * W[k, c], which is entry (10000 t + r, c) of x * W;
  row r of the array lies in the block of point r / 10000, so the ten blocks fill the array and the array is x * W.
-/
import proofs.«168177_j429496729746_1_alg».proof.Proof.Gen.KernelIdeal.Frame
import proofs.«168177_j429496729746_1_alg».proof.Proof.Layers
import proofs.«168177_j429496729746_1_alg».proof.Proof.TileProduct
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's loads and its store start at the origin of their buffers. -/
theorem origin0 : (![0, 0] : Fin 2 → Nat) = fun _ => 0 := funext fun a => by fin_cases a <;> rfl

/-- What the body computes from a tile x0 of node features and the weights x1, at entry (r, c): narrowing to the
    shorter format changes nothing at the exact reading, so it is the tile's product, the sum over k of
    x0[r, k] * x1[k, c]. -/
theorem tile0_apply (x0 : Vec Ideal S10000x128 .f32) (x1 : Vec Ideal S128x128 .f32) (j : S10000x128.Idx) :
    k0_pay1 (F := Ideal) x0 x1 j = ∑ k : Fin 128, x0 (Cert.Layers.tileRow j k) * x1 (Cert.Layers.tileCol j k) := by
  unfold k0_pay1
  exact Cert.Layers.tile_product (truncf .bf16 x0 bitsLt_bf16_f32) (truncf .bf16 x1 bitsLt_bf16_f32) j

/-- Two products of an entry of x and an entry of W agree when the entries read are the same. -/
theorem prod_congr_entries (A : S100000x128.Idx → Ideal .f32) (W : S128x128.Idx → Ideal .f32)
    {p p' : S100000x128.Idx} {q q' : S128x128.Idx} (hp : p = p') (hq : q = q') : A p * W q = A p' * W q' := by
  rw [hp, hq]

/-- The index maps over the grid: the node features' block moves down with the output's block and sits in column
    block 0; the weights' block is always the whole matrix; the output's block sits in column block 0. -/
theorem blocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks is some point's. -/
theorem blocks0_onto : ∀ q : Fin 10, ∃ t : Fin cfg0.N, win0_2.index t = ![q.val, 0] :=
  (by decide +kernel : ∀ q : Fin 10, ∃ t : Fin grid0.N, win0_2.index t = ![q.val, 0])

/-- What point t writes back is block t of x * W. -/
theorem flushed0_eq (c : Dev nD) (t : Fin cfg0.N) :
    (dat0 (F := Ideal) V c).flushed 2 t
      = ((cfg0.win 2).blk t).view.read (Elt Ideal) (Cert.Layers.lin (V c main_arg0) (V c main_arg2)) := by
  show (cfg0.win 2).cut (grid0.coords t) ((dat0 (F := Ideal) V c).after 2 t) = _
  rw [after0_2]
  unfold out0_2
  rw [View.canon_unit_zero origin0]
  simp only [View.ld_unit_zero (S := S10000x128) origin0, View.ld_unit_zero (S := S128x128) origin0]
  obtain ⟨e0, e1, e2, e3, e4⟩ := blocks0 t
  funext j
  refine (tile0_apply (iblk0 V c 0 t) (iblk0 V c 1 t) j).trans ?_
  show _ = Cert.Layers.lin (V c main_arg0) (V c main_arg2) (((cfg0.win 2).blk t).view.emb j)
  rw [Cert.Layers.lin_apply]
  refine Finset.sum_congr rfl fun k _ => ?_
  have h0 : ((cfg0.win 0).blk t).view.emb (Cert.Layers.tileRow j k)
      = Cert.Layers.rowAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (Cert.Layers.tileCol j k)
      = Cert.Layers.colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact prod_congr_entries (V c main_arg0) (V c main_arg2) h0 h1

/-- An entry of the array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- The ten blocks fill the array: row r is in the block of point r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blocks0_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The first region's output array, after its ten points, is x * W of the arrays it was entered with. -/
theorem region0_array (c : Dev nD) :
    (dat0 (F := Ideal) V c).arrAt 2 cfg0.N = Cert.Layers.lin (V c main_arg0) (V c main_arg2) :=
  (dat0 (F := Ideal) V c).arrAt_eq_of_cover 2 (Cert.Layers.lin (V c main_arg0) (V c main_arg2))
    (fun t _ => flushed0_eq V c t) cover0

end Cert.KernelIdeal.Regions

end
-- ==== Proof.Region1.lean ====
/-
  The second region's output array. The region adds the bias row b (1 x 128) to every row of the aggregated
  features a (100000 x 128), clamps below at zero, and multiplies the result by the weight matrix W (128 x 128), one
  tile of 10000 rows at each of its ten grid points. Point t reads rows 10000 t ... 10000 t + 9999 of a, the whole
  of b and the whole of W, and writes back the same rows of the output. Entry (r, c) of that tile's result is the sum
  over k of max (a[10000 t + r, k] + b[0, k]) 0 * W[k, c], which is entry (10000 t + r, c) of
  (max (a + b) 0) * W; row r of the array lies in the block of point r / 10000, so the ten blocks fill the array.
-/
import proofs.«168177_j429496729746_1_alg».proof.Proof.Gen.KernelIdeal.Frame
import proofs.«168177_j429496729746_1_alg».proof.Proof.Layers
import proofs.«168177_j429496729746_1_alg».proof.Proof.TileProduct
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's loads and its store start at the origin of their buffers. -/
theorem origin1 : (![0, 0] : Fin 2 → Nat) = fun _ => 0 := funext fun a => by fin_cases a <;> rfl

/-- Entry (0, k) of the bias row. -/
abbrev biasEntry (k : Fin 128) : S1x128.Idx := fun a => match a with
  | ⟨0, _⟩ => ⟨0, Nat.one_pos⟩
  | ⟨1, _⟩ => ⟨k.val, k.isLt⟩

/-- The bias row repeated down a tile reads, at (r, k), the row's entry (0, k). -/
theorem biasRow_apply (x1 : Vec Ideal S1x128 .f32) (j : S10000x128.Idx) (k : Fin 128) :
    broadcastTo S10000x128 x1 broadcasts_S1x128_S10000x128 (Cert.Layers.tileRow j k) = x1 (biasEntry k) :=
  broadcastTo_apply x1 broadcasts_S1x128_S10000x128 (Cert.Layers.tileRow j k) (biasEntry k) fun a => match a with
    | ⟨0, _⟩ => by show (0 : Nat) = if (1 : Nat) = 1 then 0 else (j 0).val; rfl
    | ⟨1, _⟩ => by show k.val = if (128 : Nat) = 1 then 0 else k.val; rfl

/-- What the body computes from a tile x0 of aggregated features, the bias row x1 and the weights x2, at entry
    (r, c): recasting to the same shape and narrowing to the shorter format change nothing at the exact reading, so it
    is the sum over k of max (x0[r, k] + x1[0, k]) 0 * x2[k, c]. -/
theorem tile1_apply (x0 : Vec Ideal S10000x128 .f32) (x1 : Vec Ideal S1x128 .f32) (x2 : Vec Ideal S128x128 .f32)
    (j : S10000x128.Idx) :
    k1_pay1 (F := Ideal) x0 x1 x2 j = ∑ k : Fin 128,
      FloatOps.maximumf (F := Ideal) (φ := .f32)
        (FloatOps.addf (F := Ideal) (φ := .f32) (x0 (Cert.Layers.tileRow j k)) (x1 (biasEntry k)))
        (FloatOps.ofBits (F := Ideal) .f32 0x00000000#32) * x2 (Cert.Layers.tileCol j k) := by
  unfold k1_pay1
  refine (Cert.Layers.tile_product _ _ j).trans ?_
  refine Finset.sum_congr rfl fun k _ => ?_
  show FloatOps.maximumf (F := Ideal) (φ := .f32)
      (FloatOps.addf (F := Ideal) (φ := .f32)
        (shapeCast S10000x128 x0 shapeCasts_S10000x128_S10000x128 (Cert.Layers.tileRow j k))
        (broadcastTo S10000x128 (shapeCast S1x128 x1 shapeCasts_S1x128_S1x128) broadcasts_S1x128_S10000x128 (Cert.Layers.tileRow j k)))
      (FloatOps.ofBits (F := Ideal) .f32 0x00000000#32) * x2 (Cert.Layers.tileCol j k) = _
  rw [shapeCast_self x0, shapeCast_self x1, biasRow_apply x1 j k]

/-- Two terms max (a + b) 0 * w over entries of a, b and W agree when the entries read are the same. -/
theorem relu_prod_congr_entries (A : S100000x128.Idx → Ideal .f32) (B : S1x128.Idx → Ideal .f32) (W : S128x128.Idx → Ideal .f32)
    {p p' : S100000x128.Idx} {b b' : S1x128.Idx} {q q' : S128x128.Idx} (hp : p = p') (hb : b = b') (hq : q = q') :
    FloatOps.maximumf (F := Ideal) (φ := .f32) (FloatOps.addf (F := Ideal) (φ := .f32) (A p) (B b))
        (FloatOps.ofBits (F := Ideal) .f32 0x00000000#32) * W q
      = FloatOps.maximumf (F := Ideal) (φ := .f32) (FloatOps.addf (F := Ideal) (φ := .f32) (A p') (B b'))
        (FloatOps.ofBits (F := Ideal) .f32 0x00000000#32) * W q' := by
  rw [hp, hb, hq]

/-- The index maps over the grid: the aggregated features' block moves down with the output's block and sits in
    column block 0; the bias row's and the weights' blocks are always the whole arrays; the output's block sits in
    column block 0. -/
theorem blocks1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every one of the ten row blocks is some point's. -/
theorem blocks1_onto : ∀ q : Fin 10, ∃ t : Fin cfg1.N, win1_3.index t = ![q.val, 0] :=
  (by decide +kernel : ∀ q : Fin 10, ∃ t : Fin grid1.N, win1_3.index t = ![q.val, 0])

/-- What point t writes back is block t of (max (a + b) 0) * W. -/
theorem flushed1_eq (c : Dev nD) (t : Fin cfg1.N) :
    (dat1 (F := Ideal) V c).flushed 3 t
      = ((cfg1.win 3).blk t).view.read (Elt Ideal)
          (Cert.Layers.lin (Cert.Layers.biasRelu (V c main_v45) (V c main_v46)) (V c main_arg4)) := by
  show (cfg1.win 3).cut (grid1.coords t) ((dat1 (F := Ideal) V c).after 3 t) = _
  rw [after1_3]
  unfold out1_3
  rw [View.canon_unit_zero origin1]
  simp only [View.ld_unit_zero (S := S10000x128) origin1, View.ld_unit_zero (S := S1x128) origin1, View.ld_unit_zero (S := S128x128) origin1]
  obtain ⟨e0, e1, e2, e3, e4, e5, e6⟩ := blocks1 t
  funext j
  refine (tile1_apply (iblk1 V c 0 t) (iblk1 V c 1 t) (iblk1 V c 2 t) j).trans ?_
  show _ = Cert.Layers.lin (Cert.Layers.biasRelu (V c main_v45) (V c main_v46)) (V c main_arg4) (((cfg1.win 3).blk t).view.emb j)
  rw [Cert.Layers.lin_apply]
  refine Finset.sum_congr rfl fun k _ => ?_
  rw [Cert.Layers.biasRelu_apply]
  have h0 : ((cfg1.win 0).blk t).view.emb (Cert.Layers.tileRow j k)
      = Cert.Layers.rowAt (((cfg1.win 3).blk t).view.emb j) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  have h1 : ((cfg1.win 1).blk t).view.emb (biasEntry k)
      = Cert.Layers.biasAt (Cert.Layers.rowAt (((cfg1.win 3).blk t).view.emb j) k) := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (Cert.Layers.tileCol j k)
      = Cert.Layers.colAt (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  exact relu_prod_congr_entries (V c main_v45) (V c main_v46) (V c main_arg4) h0 h1 h2

/-- An entry of the array is in point t's block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v47).slice (win1_3.rect t)).set ↔ _
  rw [View.set_slice_whole, Rect.mem_set_unit]
  exact Iff.rfl

/-- The ten blocks fill the array: row r is in the block of point r / 10000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := blocks1_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The second region's output array, after its ten points, is (max (a + b) 0) * W of the arrays it was entered
    with. -/
theorem region1_array (c : Dev nD) :
    (dat1 (F := Ideal) V c).arrAt 3 cfg1.N
      = Cert.Layers.lin (Cert.Layers.biasRelu (V c main_v45) (V c main_v46)) (V c main_arg4) :=
  (dat1 (F := Ideal) V c).arrAt_eq_of_cover 3
    (Cert.Layers.lin (Cert.Layers.biasRelu (V c main_v45) (V c main_v46)) (V c main_arg4))
    (fun t _ => flushed1_eq V c t) cover1

end Cert.KernelIdeal.Regions

end
-- ==== Proof.Region2.lean ====
/-
  The third kernel region read as one function of whole arrays: after its ten grid points the output array is
  max (agg + bias) 0 of the two arrays the region was entered with, entry by entry.
  Each grid point t works on rows 10000·t … 10000·t + 9999: it reads that block of the aggregated features and the
  whole bias row, and writes back max (block + bias row) 0; the ten blocks tile the 100000 rows.
-/
import proofs.«168177_j429496729746_1_alg».proof.Proof.Gen.KernelIdeal.Frame
import proofs.«168177_j429496729746_1_alg».proof.Proof.Layers
import Idealize.ShloMosaic.Lib.Pipeline.Value
import Idealize.ShloMosaic.Lib.ValueLayout

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

namespace Region2

/-! ## The body's value at one entry of a block -/

/-- The offsets of a whole-buffer access are all zero. -/
theorem zero_offsets2 : (![0, 0] : Fin 2 → Nat) = fun _ => 0 :=
  funext fun a => match a with | ⟨0, _⟩ => rfl | ⟨1, _⟩ => rfl

/-- Entry (p, q) of what the body stores: max (x0[p, q] + x1[0, q]) 0 — the two shape casts are to the same shape,
    the bias row is repeated down the rows, and the scalar zero is repeated everywhere. -/
theorem bias_relu_payload_apply (x0 : Vec Ideal S10000x128 .f32) (x1 : Vec Ideal S1x128 .f32) (j : S10000x128.Idx) :
    k2_pay1 (F := Ideal) x0 x1 j
      = FloatOps.maximumf (F := Ideal) (φ := .f32)
          (FloatOps.addf (F := Ideal) (φ := .f32) (x0 j) (x1 (ix2 (0 : Fin 1) (⟨(j 1).val, (j 1).isLt⟩ : Fin 128))))
          (FloatOps.ofBits (F := Ideal) .f32 0x00000000#32) := by
  obtain ⟨p, q, rfl⟩ : ∃ (p : Fin 10000) (q : Fin 128), j = ix2 p q := ⟨j 0, j 1, eq_ix2 j⟩
  unfold k2_pay1
  show FloatOps.maximumf (F := Ideal) (φ := .f32)
      (FloatOps.addf (F := Ideal) (φ := .f32) (shapeCast S10000x128 x0 shapeCasts_S10000x128_S10000x128 (ix2 p q))
        (broadcastTo S10000x128 (shapeCast S1x128 x1 shapeCasts_S1x128_S1x128) broadcasts_S1x128_S10000x128 (ix2 p q)))
      (FloatOps.ofBits (F := Ideal) .f32 0x00000000#32) = _
  rw [shapeCast_self, shapeCast_self, broadcastTo_1b_ab_apply]

/-- The same entry against whole arrays: if the block entry is the array entry i and the second operand is the whole
    bias row, the stored entry is entry i of max (a + b) 0. -/
theorem bias_relu_block_point (a : (⟨S100000x128, .f32⟩ : BufTy).Contents (Elt Ideal)) (b : (⟨S1x128, .f32⟩ : BufTy).Contents (Elt Ideal))
    (x0 : Vec Ideal S10000x128 .f32) (x1 : Vec Ideal S1x128 .f32) (j : S10000x128.Idx) (i : S100000x128.Idx)
    (h0 : x0 j = a i) (h1 : ∀ y : S1x128.Idx, x1 y = b y) (hcol : (i 1).val = (j 1).val) :
    k2_pay1 (F := Ideal) x0 x1 j = Cert.Layers.biasRelu a b i := by
  rw [bias_relu_payload_apply, Cert.Layers.biasRelu_apply, h0, h1]
  have e : (ix2 (0 : Fin 1) (⟨(j 1).val, (j 1).isLt⟩ : Fin 128) : S1x128.Idx) = Cert.Layers.biasAt i :=
    funext fun ax => match ax with
      | ⟨0, _⟩ => rfl
      | ⟨1, _⟩ => Fin.ext hcol.symm
  rw [e]

/-! ## From blocks to the array -/

variable (V : (c : Dev nD) → (b : Ref sig .tc) → Buf (Elt Ideal) ((c : Thread nD τ).loc b))

/-- The printed index maps over the ten points: the feature window and the output window sit at block row t, column
    block 0; the bias window stays at (0, 0). -/
theorem block_indices2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of max (agg + bias) 0 of the arrays the region was entered with. -/
theorem flushed2_eq (c : Dev nD) (t : Fin cfg2.N) :
    (dat2 (F := Ideal) V c).flushed 2 t
      = ((cfg2.win 2).blk t).view.read (Elt Ideal) (Cert.Layers.biasRelu (V c main_v60) (V c main_v61)) := by
  show (cfg2.win 2).cut (grid2.coords t) ((dat2 V c).after 2 t) = _
  rw [after2_2]
  unfold out2_2
  rw [View.canon_unit_zero zero_offsets2]
  simp only [View.ld_unit_zero (S := S10000x128) zero_offsets2, View.ld_unit_zero (S := S1x128) zero_offsets2]
  obtain ⟨e0, e1, e2, e3, e4, e5⟩ := block_indices2 t
  funext j
  show k2_pay1 (F := Ideal) (iblk2 V c 0 t) (iblk2 V c 1 t) j
    = Cert.Layers.biasRelu (V c main_v60) (V c main_v61) (((cfg2.win 2).blk t).view.emb j)
  refine bias_relu_block_point (V c main_v60) (V c main_v61) (iblk2 V c 0 t) (iblk2 V c 1 t) j
    (((cfg2.win 2).blk t).view.emb j) ?_ ?_ ?_
  · show V c main_v60 (((cfg2.win 0).blk t).view.emb j) = V c main_v60 (((cfg2.win 2).blk t).view.emb j)
    refine congrArg (V c main_v60) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * (j 1).val = win2_2.index t (1 : Fin 2) * 128 + 1 * (j 1).val; omega
  · intro y
    show V c main_v61 (((cfg2.win 1).blk t).view.emb y) = V c main_v61 y
    refine congrArg (V c main_v61) (funext fun a => Fin.ext ?_)
    match a with
    | ⟨0, _⟩ => show win2_1.index t (0 : Fin 2) * 1 + 1 * (y 0).val = (y 0).val; omega
    | ⟨1, _⟩ => show win2_1.index t (1 : Fin 2) * 128 + 1 * (y 1).val = (y 1).val; omega
  · show win2_2.index t (1 : Fin 2) * 128 + 1 * (j 1).val = (j 1).val
    omega

/-- An index of the array is in point t's block iff each coordinate is in the block's range on its axis. -/
theorem mem_block2 (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v62).slice (win2_2.rect t)).set ↔ _
  rw [View.set_slice_whole, Rect.mem_set_unit]
  exact Iff.rfl

/-- Row r of the array is in the block of point r / 10000: the ten blocks cover the array. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  obtain ⟨t, ht⟩ : ∃ t : Fin cfg2.N, t.val = (i 0).val / 10000 :=
    ⟨⟨(i 0).val / 10000, by show (i 0).val / 10000 < grid2.N; omega⟩, rfl⟩
  obtain ⟨e0, e1, e2, e3, e4, e5⟩ := block_indices2 t
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

end Region2

variable (V : (c : Dev nD) → (b : Ref sig .tc) → Buf (Elt Ideal) ((c : Thread nD τ).loc b))

/-- The third region's output array after its ten points: max (agg + bias) 0 of the arrays it was entered with. -/
theorem region2_array (c : Dev nD) :
    (dat2 (F := Ideal) V c).arrAt 2 cfg2.N = Cert.Layers.biasRelu (V c main_v60) (V c main_v61) :=
  (dat2 (F := Ideal) V c).arrAt_eq_of_cover 2 (Cert.Layers.biasRelu (V c main_v60) (V c main_v61))
    (fun t _ => Region2.flushed2_eq V c t) Region2.cover2

end Cert.KernelIdeal.Regions

end
-- ==== Proof.KernelValue.lean ====
/-
  What the three-region program leaves in its result buffer: the network's one function of the six arguments.

  The contents of the TensorCore's buffers are followed from the launch through every boundary of @main:
  a stretch of host operations rewrites its own results and keeps every other buffer; a region leaves its output array
  at the dense stage of the arrays it was entered with (the region lemmas) and every other buffer as entered.
  Reading the boundaries in order:
    before region 0 : the endpoint lists s, d and the edge weights w are built from the edge list;
    region 0        : h₁ = x·W₁;
    then            : a₁ = A·h₁ (message passing), and b₁ as a row;
    region 1        : h₂ = relu (a₁ + b₁)·W₂;
    then            : a₂ = A·h₂, and b₂ as a row;
    region 2        : out = relu (a₂ + b₂).
-/
import proofs.«168177_j429496729746_1_alg».proof.Proof.Gen.KernelIdeal.Frame
import proofs.«168177_j429496729746_1_alg».proof.Proof.KernelRun
import proofs.«168177_j429496729746_1_alg».proof.Proof.Network
import proofs.«168177_j429496729746_1_alg».proof.Proof.StretchEntry
import proofs.«168177_j429496729746_1_alg».proof.Proof.StretchWeights
import proofs.«168177_j429496729746_1_alg».proof.Proof.StretchLayers
import proofs.«168177_j429496729746_1_alg».proof.Proof.Keeps
import proofs.«168177_j429496729746_1_alg».proof.Proof.Region0
import proofs.«168177_j429496729746_1_alg».proof.Proof.Region1
import proofs.«168177_j429496729746_1_alg».proof.Proof.Region2
import Idealize.ShloMosaic.PureOps.Ideal

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Chains Cert.KernelIdeal.Regions Cert.Layers

variable (m : (ℓ : Loc nD τ sig) → Buf (Elt Ideal) ℓ) (ρ : Dev nD → PrngReg) (c : Dev nD)

/-! ## The graph's normalisation, before the first region -/

/-- The edge sources (self loops appended) at region 0's entry. -/
theorem sources3 : W3 m ρ c (Proc.devRef .tc main_v3) = endpoints0 (F := Ideal) (m ((c : Thread nD τ).loc main_arg1)) :=
  (keep_hostOps0_2_main_v3 (W2 m ρ c)).trans ((keep_hostOps0_1_main_v3 (W1 m ρ c)).trans (entry_sources (W0 m ρ c)))

/-- The edge targets (self loops appended) at region 0's entry. -/
theorem targets3 : W3 m ρ c (Proc.devRef .tc main_v6) = endpoints1 (F := Ideal) (m ((c : Thread nD τ).loc main_arg1)) :=
  (keep_hostOps0_2_main_v6 (W2 m ρ c)).trans ((keep_hostOps0_1_main_v6 (W1 m ρ c)).trans (entry_targets (W0 m ρ c)))

/-- The per-node factor deg^(-1/2) (0 at an isolated node) after the `where`. -/
theorem factor2 : W2 m ρ c (Proc.devRef .tc main_v16)
    = invSqrtDegree (F := Ideal) (degree (endpoints1 (m ((c : Thread nD τ).loc main_arg1)))) := by
  refine (mask_joined (W1 m ρ c)).trans ?_
  have h12 : W1 m ρ c (Proc.devRef .tc main_v12) = positive (F := Ideal) (degree (endpoints1 (m ((c : Thread nD τ).loc main_arg1)))) :=
    entry_positive (W0 m ρ c)
  have h15 : W1 m ρ c (Proc.devRef .tc main_v15) = invSqrtClamped (F := Ideal) (degree (endpoints1 (m ((c : Thread nD τ).loc main_arg1)))) :=
    entry_invSqrt (W0 m ρ c)
  have h0 : W1 m ρ c (Proc.devRef .tc main_cst_3) = constant (F := Ideal) S_ .f32 0x00000000#32 :=
    entry_zero (W0 m ρ c)
  rw [h12, h15, h0]
  rfl

/-- The edge weights at region 0's entry. -/
theorem weights3 : W3 m ρ c (Proc.devRef .tc main_v31) = graphWeight (F := Ideal) (m ((c : Thread nD τ).loc main_arg1)) := by
  refine (weights_from (W2 m ρ c)).trans ?_
  have hs : W2 m ρ c (Proc.devRef .tc main_v3) = endpoints0 (F := Ideal) (m ((c : Thread nD τ).loc main_arg1)) :=
    (keep_hostOps0_1_main_v3 (W1 m ρ c)).trans (entry_sources (W0 m ρ c))
  have hd : W2 m ρ c (Proc.devRef .tc main_v6) = endpoints1 (F := Ideal) (m ((c : Thread nD τ).loc main_arg1)) :=
    (keep_hostOps0_1_main_v6 (W1 m ρ c)).trans (entry_targets (W0 m ρ c))
  rw [factor2 m ρ c, hs, hd]
  rfl

/-! ## An argument is still as launched at region 0's entry -/

theorem arg0_3 : W3 m ρ c (Proc.devRef .tc main_arg0) = m ((c : Thread nD τ).loc main_arg0) :=
  (keep_hostOps0_2_main_arg0 (W2 m ρ c)).trans ((keep_hostOps0_1_main_arg0 (W1 m ρ c)).trans (keep_hostOps0_main_arg0 (W0 m ρ c)))
theorem arg2_3 : W3 m ρ c (Proc.devRef .tc main_arg2) = m ((c : Thread nD τ).loc main_arg2) :=
  (keep_hostOps0_2_main_arg2 (W2 m ρ c)).trans ((keep_hostOps0_1_main_arg2 (W1 m ρ c)).trans (keep_hostOps0_main_arg2 (W0 m ρ c)))
theorem arg3_3 : W3 m ρ c (Proc.devRef .tc main_arg3) = m ((c : Thread nD τ).loc main_arg3) :=
  (keep_hostOps0_2_main_arg3 (W2 m ρ c)).trans ((keep_hostOps0_1_main_arg3 (W1 m ρ c)).trans (keep_hostOps0_main_arg3 (W0 m ρ c)))
theorem arg4_3 : W3 m ρ c (Proc.devRef .tc main_arg4) = m ((c : Thread nD τ).loc main_arg4) :=
  (keep_hostOps0_2_main_arg4 (W2 m ρ c)).trans ((keep_hostOps0_1_main_arg4 (W1 m ρ c)).trans (keep_hostOps0_main_arg4 (W0 m ρ c)))
theorem arg5_3 : W3 m ρ c (Proc.devRef .tc main_arg5) = m ((c : Thread nD τ).loc main_arg5) :=
  (keep_hostOps0_2_main_arg5 (W2 m ρ c)).trans ((keep_hostOps0_1_main_arg5 (W1 m ρ c)).trans (keep_hostOps0_main_arg5 (W0 m ρ c)))

/-! ## Region 0: h₁ = x·W₁; every other buffer as entered -/

theorem first_stage : W4 m ρ c (Proc.devRef .tc main_v32)
    = lin (m ((c : Thread nD τ).loc main_arg0)) (m ((c : Thread nD τ).loc main_arg2)) := by
  refine (W4_arr m ρ c 2).trans ((region0_array (V3 m ρ) c).trans ?_)
  have hx : V3 m ρ c main_arg0 = m ((c : Thread nD τ).loc main_arg0) := arg0_3 m ρ c
  have hw : V3 m ρ c main_arg2 = m ((c : Thread nD τ).loc main_arg2) := arg2_3 m ρ c
  rw [hx, hw]

theorem sources4 : W4 m ρ c (Proc.devRef .tc main_v3) = endpoints0 (F := Ideal) (m ((c : Thread nD τ).loc main_arg1)) :=
  (W4_of_ne m ρ c main_v3 (by decide)).trans (sources3 m ρ c)
theorem targets4 : W4 m ρ c (Proc.devRef .tc main_v6) = endpoints1 (F := Ideal) (m ((c : Thread nD τ).loc main_arg1)) :=
  (W4_of_ne m ρ c main_v6 (by decide)).trans (targets3 m ρ c)
theorem weights4 : W4 m ρ c (Proc.devRef .tc main_v31) = graphWeight (F := Ideal) (m ((c : Thread nD τ).loc main_arg1)) :=
  (W4_of_ne m ρ c main_v31 (by decide)).trans (weights3 m ρ c)
theorem arg3_4 : W4 m ρ c (Proc.devRef .tc main_arg3) = m ((c : Thread nD τ).loc main_arg3) :=
  (W4_of_ne m ρ c main_arg3 (by decide)).trans (arg3_3 m ρ c)
theorem arg4_4 : W4 m ρ c (Proc.devRef .tc main_arg4) = m ((c : Thread nD τ).loc main_arg4) :=
  (W4_of_ne m ρ c main_arg4 (by decide)).trans (arg4_3 m ρ c)
theorem arg5_4 : W4 m ρ c (Proc.devRef .tc main_arg5) = m ((c : Thread nD τ).loc main_arg5) :=
  (W4_of_ne m ρ c main_arg5 (by decide)).trans (arg5_3 m ρ c)

/-! ## Between regions 0 and 1: a₁ = A·h₁, the bias as a row -/

theorem first_round5 : W5 m ρ c (Proc.devRef .tc main_v45)
    = propagate (F := Ideal) (m ((c : Thread nD τ).loc main_arg1))
        (lin (m ((c : Thread nD τ).loc main_arg0)) (m ((c : Thread nD τ).loc main_arg2))) := by
  refine (first_round (W4 m ρ c)).trans ?_
  rw [sources4 m ρ c, targets4 m ρ c, weights4 m ρ c, first_stage m ρ c]
  rfl

theorem first_bias5 : W5 m ρ c (Proc.devRef .tc main_v46) = biasRow (F := Ideal) (m ((c : Thread nD τ).loc main_arg3)) := by
  refine (first_bias (W4 m ρ c)).trans ?_
  rw [arg3_4 m ρ c]

theorem arg4_5 : W5 m ρ c (Proc.devRef .tc main_arg4) = m ((c : Thread nD τ).loc main_arg4) :=
  (keep_hostOps1_main_arg4 (W4 m ρ c)).trans (arg4_4 m ρ c)

/-! ## Region 1: h₂ = relu (a₁ + b₁)·W₂; every other buffer as entered -/

theorem second_stage : W6 m ρ c (Proc.devRef .tc main_v47)
    = lin (biasRelu (propagate (F := Ideal) (m ((c : Thread nD τ).loc main_arg1))
            (lin (m ((c : Thread nD τ).loc main_arg0)) (m ((c : Thread nD τ).loc main_arg2))))
          (biasRow (F := Ideal) (m ((c : Thread nD τ).loc main_arg3))))
        (m ((c : Thread nD τ).loc main_arg4)) := by
  refine (W6_arr m ρ c 3).trans ((region1_array (V5 m ρ) c).trans ?_)
  have ha : V5 m ρ c main_v45 = _ := first_round5 m ρ c
  have hb : V5 m ρ c main_v46 = _ := first_bias5 m ρ c
  have hw : V5 m ρ c main_arg4 = _ := arg4_5 m ρ c
  rw [ha, hb, hw]

theorem sources6 : W6 m ρ c (Proc.devRef .tc main_v3) = endpoints0 (F := Ideal) (m ((c : Thread nD τ).loc main_arg1)) :=
  (W6_of_ne m ρ c main_v3 (by decide)).trans ((keep_hostOps1_main_v3 (W4 m ρ c)).trans (sources4 m ρ c))
theorem targets6 : W6 m ρ c (Proc.devRef .tc main_v6) = endpoints1 (F := Ideal) (m ((c : Thread nD τ).loc main_arg1)) :=
  (W6_of_ne m ρ c main_v6 (by decide)).trans ((keep_hostOps1_main_v6 (W4 m ρ c)).trans (targets4 m ρ c))
theorem weights6 : W6 m ρ c (Proc.devRef .tc main_v31) = graphWeight (F := Ideal) (m ((c : Thread nD τ).loc main_arg1)) :=
  (W6_of_ne m ρ c main_v31 (by decide)).trans ((keep_hostOps1_main_v31 (W4 m ρ c)).trans (weights4 m ρ c))
theorem arg5_6 : W6 m ρ c (Proc.devRef .tc main_arg5) = m ((c : Thread nD τ).loc main_arg5) :=
  (W6_of_ne m ρ c main_arg5 (by decide)).trans ((keep_hostOps1_main_arg5 (W4 m ρ c)).trans (arg5_4 m ρ c))

/-! ## Between regions 1 and 2: a₂ = A·h₂, the bias as a row -/

theorem second_round7 : W7 m ρ c (Proc.devRef .tc main_v60)
    = propagate (F := Ideal) (m ((c : Thread nD τ).loc main_arg1))
        (lin (biasRelu (propagate (F := Ideal) (m ((c : Thread nD τ).loc main_arg1))
                (lin (m ((c : Thread nD τ).loc main_arg0)) (m ((c : Thread nD τ).loc main_arg2))))
              (biasRow (F := Ideal) (m ((c : Thread nD τ).loc main_arg3))))
            (m ((c : Thread nD τ).loc main_arg4))) := by
  refine (second_round (W6 m ρ c)).trans ?_
  rw [sources6 m ρ c, targets6 m ρ c, weights6 m ρ c, second_stage m ρ c]
  rfl

theorem second_bias7 : W7 m ρ c (Proc.devRef .tc main_v61) = biasRow (F := Ideal) (m ((c : Thread nD τ).loc main_arg5)) := by
  refine (second_bias (W6 m ρ c)).trans ?_
  rw [arg5_6 m ρ c]

/-! ## Region 2: out = relu (a₂ + b₂) -/

/-- The result buffer at the last boundary is the network's function of the six arguments as launched. -/
theorem result8 : W8 m ρ c (Proc.devRef .tc main_v62)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 2).trans ((region2_array (V7 m ρ) c).trans ?_)
  have ha : V7 m ρ c main_v60 = _ := second_round7 m ρ c
  have hb : V7 m ρ c main_v61 = _ := second_bias7 m ρ c
  rw [ha, hb]
  rfl

/-! ## The run -/

/-- Every weakly fair execution of the three-region program terminates without a fault with the result buffer at the
    network's function of the arguments, and the arguments as launched. -/
theorem run : θ_run defs (onTc (τ := τ) (main (F := Ideal))) ⟨m, fun _ => 0, ρ⟩ (fun r => ∀ c : Dev nD,
      r.2.mem ((c.tc : Thread nD τ).loc main_v62)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result8 m ρ c), (h c).2⟩) (Cert.KernelIdeal.Named.run m ρ)

end Cert.KernelIdeal.Whole

end
-- ==== Proof.RefLayers.lean ====
/-
  The reference's three dense stages read as the two whole-array functions of a graph-convolution layer:
  its first product is x · W₁, its second is relu(agg₁ + b₁) · W₂, and its output is relu(agg₂ + b₂), where the
  aggregations agg₁, agg₂ (scatter-adds over the edges) are left as they are.
-/
import proofs.«168177_j429496729746_1_alg».proof.Proof.RefReadP
import proofs.«168177_j429496729746_1_alg».proof.Proof.Layers

noncomputable section

namespace Cert.ReferenceIdeal.Layers

open Cert.ReferenceIdeal Cert.ReferenceIdeal.ReadP Idealize.ShloMosaic

/-! ## The two products -/

/-- The first product is x · W: entry (r, c) is the sum over k of x[r, k] · W[k, c]. -/
theorem first_product (x0 : (⟨S100000x128, .f32⟩ : BufTy).Contents (Elt Ideal)) (x2 : (⟨S128x128, .f32⟩ : BufTy).Contents (Elt Ideal)) :
    val_main_v32 (F := Ideal) x0 x2 = Cert.Layers.lin x0 x2 := by
  funext i
  rw [val_main_v32_apply]
  refine Eq.trans ?_ (Cert.Layers.lin_apply x0 x2 i).symm
  refine Finset.sum_congr rfl fun k _ => ?_
  have el : lidx_main_v32 i k = Cert.Layers.rowAt i k :=
    funext fun a => match a with | ⟨0, _⟩ => rfl | ⟨1, _⟩ => rfl
  have er : ridx_main_v32 i k = Cert.Layers.colAt i k :=
    funext fun a => match a with | ⟨0, _⟩ => rfl | ⟨1, _⟩ => rfl
  rw [el, er]

/-- The hidden activation, entry by entry: max (agg₁ + b₁) 0, the bias row repeated down the nodes. -/
theorem hidden_activation_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (j : S100000x128.Idx) :
    val_main_v49 (F := Ideal) x0 x1 x2 x3 j
      = Cert.Layers.biasRelu (val_main_v45 (F := Ideal) x0 x1 x2) (val_main_v46 (F := Ideal) x3) j := by
  rw [val_main_v49_apply, val_main_v48_apply, val_main_v47_apply, val_main_call1_v0_apply, val_main_call1_cst_apply,
    Cert.Layers.biasRelu_apply]
  have e : idx_main_v47 j = Cert.Layers.biasAt j :=
    funext fun a => match a with | ⟨0, _⟩ => rfl | ⟨1, _⟩ => rfl
  rw [e]

/-- The second product is relu(agg₁ + b₁) · W₂. -/
theorem second_product (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v50 (F := Ideal) x0 x1 x2 x3 x4
      = Cert.Layers.lin (Cert.Layers.biasRelu (val_main_v45 (F := Ideal) x0 x1 x2) (val_main_v46 (F := Ideal) x3)) x4 := by
  funext i
  rw [val_main_v50_apply]
  refine Eq.trans ?_ (Cert.Layers.lin_apply _ x4 i).symm
  refine Finset.sum_congr rfl fun k _ => ?_
  have el : lidx_main_v50 i k = Cert.Layers.rowAt i k :=
    funext fun a => match a with | ⟨0, _⟩ => rfl | ⟨1, _⟩ => rfl
  have er : ridx_main_v50 i k = Cert.Layers.colAt i k :=
    funext fun a => match a with | ⟨0, _⟩ => rfl | ⟨1, _⟩ => rfl
  rw [el, er, hidden_activation_apply]

/-! ## The output -/

/-- The output is relu(agg₂ + b₂). -/
theorem output_layer (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v67 (F := Ideal) x0 x1 x2 x3 x4 x5
      = Cert.Layers.biasRelu (val_main_v63 (F := Ideal) x0 x1 x2 x3 x4) (val_main_v64 (F := Ideal) x5) := by
  funext i
  rw [val_main_v67_apply, val_main_v66_apply, val_main_v65_apply, val_main_call2_v0_apply, val_main_call2_cst_apply,
    Cert.Layers.biasRelu_apply]
  have e : idx_main_v65 i = Cert.Layers.biasAt i :=
    funext fun a => match a with | ⟨0, _⟩ => rfl | ⟨1, _⟩ => rfl
  rw [e]

end Cert.ReferenceIdeal.Layers

end
-- ==== Proof.LibRowForms.lean ====
/-
  A vector laid out as a row, two ways.

  An `[n]` vector becomes a `[1, n]` row either by a shape cast or by a broadcast along axis 1; the two rows are the
  same array: entry `(0, q)` of either is entry `q` of the vector.
-/
import Idealize.ShloMosaic.Lib.ValueIdx
import Idealize.ShloMosaic.Lib.Pipeline.Value
import Idealize.ShloMosaic.Lib.ValueLayout
import Idealize.ShloMosaic.Lib.StableHlo.Predicate

namespace Cert.LibRowForms

open Idealize.ShloMosaic Idealize.ShloMosaic.ValueIdx

/-- The cast of an `[n]` vector to a `[1, n]` row is its broadcast along axis 1. -/
theorem row_cast_eq_bcast {α : Type} {n : Nat} (v : (⟨1, ![n]⟩ : Shape).Idx → α)
    (h₁ : (⟨1, ![n]⟩ : Shape).ShapeCasts ⟨2, ![1, n]⟩)
    (h₂ : (⟨1, ![n]⟩ : Shape).BroadcastsInDim ⟨2, ![1, n]⟩ (![1] : Fin 1 → Fin (⟨2, ![1, n]⟩ : Shape).rank)) :
    shapeCast ⟨2, ![1, n]⟩ v h₁ = broadcastInDim ⟨2, ![1, n]⟩ ![1] h₂ v := by
  -- Entry by entry: an index of the row is (u, q) with u the unit coordinate. The cast reads the vector at q,
  -- whatever u is; the broadcast along axis 1 reads the vector at the row index's coordinate on axis 1, which is q
  -- (when n = 1 the vector's one axis is a unit axis and is read at 0, which is again q).
  funext i
  obtain ⟨u, q, rfl⟩ : ∃ (u : Fin 1) (q : Fin n), i = ix2 u q := ⟨i 0, i 1, eq_ix2 i⟩
  rw [shapeCast_a_1a_apply]
  refine (broadcastInDim_apply ![1] h₂ v (ix2 u q) (ix1 q) fun a => ?_).symm
  match a with
  | ⟨0, _⟩ =>
    show q.val = if n = 1 then 0 else q.val
    split
    · have := q.isLt; omega
    · rfl

end Cert.LibRowForms
-- ==== Proof.RefValue.lean ====
/-
  The reference program computes the same function of the six arguments.

  Its host operations around the three dense stages are, operation for operation, the ones the three-region program
  applies: the endpoint lists, the edge weights and each round of message passing are the SAME terms, which is checked
  here by unfolding the stage names only (for any float family: nothing is evaluated). A bias enters the reference as
  a broadcast along axis 1 and the other program as a cast to one row: the same row. The dense stages are the two
  functions `lin` and `biasRelu`.
-/
import proofs.«168177_j429496729746_1_alg».proof.Proof.RefReadP
import proofs.«168177_j429496729746_1_alg».proof.Proof.RefLayers
import proofs.«168177_j429496729746_1_alg».proof.Proof.Network
import proofs.«168177_j429496729746_1_alg».proof.Proof.LibRowForms

set_option maxRecDepth 16384

noncomputable section

namespace Cert.ReferenceIdeal.Whole

open Idealize.ShloMosaic Cert.ReferenceIdeal.ReadP

section AnyFamily

variable {F : FTy → Type} [FloatOps F]

/-- The reference's edge sources with the self loops are the same list. -/
theorem sources_eq (x1 : (⟨Cert.ReferenceIdeal.S2x1600000, .i32⟩ : BufTy).Contents (Elt F)) :
    val_main_v3 (F := F) x1 = Cert.KernelIdeal.Chains.endpoints0 (F := F) x1 := rfl

/-- The reference's edge targets with the self loops are the same list. -/
theorem targets_eq (x1 : (⟨Cert.ReferenceIdeal.S2x1600000, .i32⟩ : BufTy).Contents (Elt F)) :
    val_main_v6 (F := F) x1 = Cert.KernelIdeal.Chains.endpoints1 (F := F) x1 := rfl

/-- The reference's edge weights are the same function of the edge list. -/
theorem weights_eq (x1 : (⟨Cert.ReferenceIdeal.S2x1600000, .i32⟩ : BufTy).Contents (Elt F)) :
    val_main_v31 (F := F) x1 = Cert.KernelIdeal.Chains.graphWeight (F := F) x1 := rfl

/-- The reference's first round of message passing is `propagate` of its first product. -/
theorem first_round_eq (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F)) :
    val_main_v45 (F := F) x0 x1 x2 = Cert.KernelIdeal.Chains.propagate (F := F) x1 (val_main_v32 (F := F) x0 x2) := rfl

/-- The reference's second round of message passing is `propagate` of its second product. -/
theorem second_round_eq (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F))
    (x3 : (⟨Cert.ReferenceIdeal.S128, .f32⟩ : BufTy).Contents (Elt F)) (x4 : (⟨Cert.ReferenceIdeal.S128x128, .f32⟩ : BufTy).Contents (Elt F)) :
    val_main_v63 (F := F) x0 x1 x2 x3 x4
      = Cert.KernelIdeal.Chains.propagate (F := F) x1 (val_main_v50 (F := F) x0 x1 x2 x3 x4) := rfl

/-- A bias broadcast along axis 1 is the bias cast to one row. -/
theorem first_bias_eq (x3 : (⟨Cert.ReferenceIdeal.S128, .f32⟩ : BufTy).Contents (Elt F)) :
    val_main_v46 (F := F) x3 = Cert.KernelIdeal.Chains.biasRow (F := F) x3 := by
  unfold val_main_v46 Cert.KernelIdeal.Chains.biasRow
  exact (Cert.LibRowForms.row_cast_eq_bcast (n := 128) x3 _ _).symm

/-- The same for the second layer's bias. -/
theorem second_bias_eq (x5 : (⟨Cert.ReferenceIdeal.S128, .f32⟩ : BufTy).Contents (Elt F)) :
    val_main_v64 (F := F) x5 = Cert.KernelIdeal.Chains.biasRow (F := F) x5 := by
  unfold val_main_v64 Cert.KernelIdeal.Chains.biasRow
  exact (Cert.LibRowForms.row_cast_eq_bcast (n := 128) x5 _ _).symm

end AnyFamily

/-- The reference's result, as a function of its six arguments, is the network. -/
theorem result_eq (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal))
    (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) :
    val_main_v67 (F := Ideal) x0 x1 x2 x3 x4 x5 = Cert.Layers.network x0 x1 x2 x3 x4 x5 := by
  rw [Cert.ReferenceIdeal.Layers.output_layer, second_round_eq, Cert.ReferenceIdeal.Layers.second_product, first_round_eq,
    Cert.ReferenceIdeal.Layers.first_product, first_bias_eq, second_bias_eq]
  rfl

end Cert.ReferenceIdeal.Whole

end
-- ==== Proof.lean ====
/-
  The certificate of a two-layer graph convolution: three pallas_call regions (x·W₁ on row tiles; relu (· + b₁)·W₂ on row
  tiles; relu (· + b₂) on row tiles) with the edge-indexed message passing between them left to the host, against the
  plain jnp reference.

  At the exact reading both programs compute ONE function of the six arguments,
      out = relu (A·(relu (A·(x·W₁) + b₁)·W₂) + b₂),
  A·h being one round of message passing over the graph of the edge list with its self loops (`Cert.Layers.network`):
  * a region's ten row tiles each hold the dense stage of their own rows, and the tiles cover the array, so a region
    leaves the dense stage of the whole array; a tile's matrix product into a zero accumulator is, entry by entry,
    the same sum over k as the whole product, and a change of float format is the identity;
  * the host operations between the regions are the reference's own, term for term;
  * no law that needs finite inputs is used: the two sides are the same sums in the same order.
  The three frames: the two kernels' are the generated frame certificates; the reference's is its run with the result
  dropped. Nothing was rewritten by the idealization, so `preserves` is trivial.
-/
import proofs.«168177_j429496729746_1_alg».proof.Defs
import proofs.«168177_j429496729746_1_alg».proof.Proof.Gen.Kernel
import proofs.«168177_j429496729746_1_alg».proof.Proof.Gen.Kernel.Skeleton
import proofs.«168177_j429496729746_1_alg».proof.Proof.Gen.Kernel.Launch
import proofs.«168177_j429496729746_1_alg».proof.Proof.Gen.Kernel.Points
import proofs.«168177_j429496729746_1_alg».proof.Proof.Gen.Kernel.Frame
import proofs.«168177_j429496729746_1_alg».proof.Proof.Gen.KernelIdeal
import proofs.«168177_j429496729746_1_alg».proof.Proof.Gen.KernelIdeal.Skeleton
import proofs.«168177_j429496729746_1_alg».proof.Proof.Gen.KernelIdeal.Launch
import proofs.«168177_j429496729746_1_alg».proof.Proof.Gen.KernelIdeal.Points
import proofs.«168177_j429496729746_1_alg».proof.Proof.Gen.KernelIdeal.Frame
import proofs.«168177_j429496729746_1_alg».proof.Proof.Gen.ReferenceIdeal
import proofs.«168177_j429496729746_1_alg».proof.Proof.Gen.Pre_finite_inputs
import proofs.«168177_j429496729746_1_alg».proof.Proof.KernelValue
import proofs.«168177_j429496729746_1_alg».proof.Proof.RefValue
import Idealize.ShloMosaic.Adequacy
import Idealize.ShloMosaic.Init

noncomputable section

namespace Cert.Proof

open Idealize.ShloMosaic Idealize.SL.Sem

/-- From memories that agree on the arguments both programs end with the network's function of them in the result
    buffer, and with their arguments as launched. -/
theorem algebraic : Cert.algebraic_KernelIdeal_ReferenceIdeal := by
  intro m ρ m' ρ' _ hagree
  refine ⟨fun c => Cert.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v67_eq, Cert.ReferenceIdeal.Whole.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
